-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x48x48x128 : Shape := ⟨4, ![16, 48, 48, 128]⟩
abbrev S128x512 : Shape := ⟨2, ![128, 512]⟩
abbrev S512 : Shape := ⟨1, ![512]⟩
abbrev S_ : Shape := ⟨0, ![]⟩

class Facts : Prop where
  bcast_S_S16x48x48x128 : S_.BroadcastsInDim S16x48x48x128 (![] : Fin 0 → Fin S16x48x48x128.rank)
  reducesTo_S16x48x48x128_S_d0_1_2_3 : S16x48x48x128.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16x48x48x128 .f32) (main_arg1 : FVec F S128x512 .f32) (main_arg2 : FVec F S512 .f32) : IVec S_ 1 :=
  let main_v0 : FVec F S16x48x48x128 .f32 := Host.absf main_arg0
  let main_cst : FVec F S_ .f32 := constant S_ .f32 0x7F800000#32
  let main_v1 : FVec F S16x48x48x128 .f32 := broadcastInDim S16x48x48x128 ![] bcast_S_S16x48x48x128 main_cst
  let main_v2 : IVec S16x48x48x128 1 := cmpf .olt main_v0 main_v1
  let main_c : IVec S_ 1 := constantI S_ 1 1#1
  let main_v3 : IVec S_ 1 := (fun x v => Host.reduce IntOp.andi x v reducesTo_S16x48x48x128_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16x48x48x128 : Shape := ⟨4, ![16, 48, 48, 128]⟩
abbrev S128x512 : Shape := ⟨2, ![128, 512]⟩
abbrev S512 : Shape := ⟨1, ![512]⟩
abbrev S16x2304x128 : Shape := ⟨3, ![16, 2304, 128]⟩
abbrev S16x2304x512 : Shape := ⟨3, ![16, 2304, 512]⟩
abbrev S1x576x128 : Shape := ⟨3, ![1, 576, 128]⟩
abbrev S1x576x512 : Shape := ⟨3, ![1, 576, 512]⟩
abbrev S576x128 : Shape := ⟨2, ![576, 128]⟩
abbrev S576x512 : Shape := ⟨2, ![576, 512]⟩
abbrev S576 : Shape := ⟨1, ![576]⟩
abbrev S576x1 : Shape := ⟨2, ![576, 1]⟩
abbrev S1x512 : Shape := ⟨2, ![1, 512]⟩

abbrev nBuf : Space → Nat
  | .hbm => 5
  | .vmem => 6
  | .smem => 0
  | _ => 0

abbrev bufTy : (tb : Table) → Fin (tcTables nBuf tb) → BufTy
  | .hbm, ⟨0, _⟩ => ⟨S16x48x48x128, .f32⟩
  | .hbm, ⟨1, _⟩ => ⟨S128x512, .f32⟩
  | .hbm, ⟨2, _⟩ => ⟨S512, .f32⟩
  | .hbm, ⟨3, _⟩ => ⟨S16x2304x128, .f32⟩
  | .hbm, ⟨4, _⟩ => ⟨S16x2304x512, .f32⟩
  | .local _ .vmem, ⟨0, _⟩ => ⟨S1x576x128, .f32⟩
  | .local _ .vmem, ⟨1, _⟩ => ⟨S1x576x128, .f32⟩
  | .local _ .vmem, ⟨2, _⟩ => ⟨S128x512, .f32⟩
  | .local _ .vmem, ⟨3, _⟩ => ⟨S512, .f32⟩
  | .local _ .vmem, ⟨4, _⟩ => ⟨S1x576x512, .f32⟩
  | .local _ .vmem, ⟨5, _⟩ => ⟨S1x576x512, .f32⟩
  | _, _ => ⟨S16x48x48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x576x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x576x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x48x48x128_S16x2304x128 : S16x48x48x128.ShapeCasts S16x2304x128
  inb_S1x576x128_S1x576x128_0_0_0 : ∀ a, (![0, 0, 0] : Fin 3 → Nat) a + S1x576x128.size a ≤ S1x576x128.size a
  h_S1x576x128 : 0 < S1x576x128.numel
  shapeCasts_S1x576x128_S576x128 : S1x576x128.ShapeCasts S576x128
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  bitsLt_bf16_f32 : FTy.bits .bf16 < FTy.bits .f32
  reduces_S576x128_S576 : S576x128.Reduces [1] S576
  shapeCasts_S576_S576x1 : S576.ShapeCasts S576x1
  reduces_S128x512_S512 : S128x512.Reduces [0] S512
  shapeCasts_S512_S1x512 : S512.ShapeCasts S1x512
  broadcasts_S576x1_S576x512 : S576x1.Broadcasts S576x512
  broadcasts_S1x512_S576x512 : S1x512.Broadcasts S576x512
  inb_S1x576x512_S1x576x512_0_0_0 : ∀ a, (![0, 0, 0] : Fin 3 → Nat) a + S1x576x512.size a ≤ S1x576x512.size a
  h_S1x576x512 : 0 < S1x576x512.numel
  shapeCasts_S1x576x512_S576x512 : S1x576x512.ShapeCasts S576x512
  shapeCasts_S576x512_S1x576x512 : S576x512.ShapeCasts S1x576x512
  dot_S576x128_S128x512_S576x512_1_0_0_1_n_n_wf : DotDims.WF S576x128 S128x512 S576x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x576x128.size a ≤ S16x2304x128.size a
  hwx0_0 : ∀ i : grid0.Coords, EltTy.bits .f32 = 32 ∨ (Rect.block (s := S16x2304x128) S1x576x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x576x512.size a ≤ S16x2304x512.size a
  hwx0_3 : ∀ i : grid0.Coords, EltTy.bits .f32 = 32 ∨ (Rect.block (s := S16x2304x512) S1x576x512.size (cc0_transform_3 i) (hinb0_3 i)).WholeWords (EltTy.packing .f32)

variable [Facts₀]

def dot_S576x128_S128x512_S576x512_1_0_0_1_n_n : DotDims S576x128 S128x512 S576x512 where
  lhsContracting := [1]
  rhsContracting := [0]
  lhsNonContracting := [0]
  rhsNonContracting := [1]
  lhsBatch := []
  rhsBatch := []
  wf := dot_S576x128_S128x512_S576x512_1_0_0_1_n_n_wf

abbrev win0_0 : Pipeline.Window sig grid0 :=
  Pipeline.Window.ofSpec (Memref.whole main_v0) S1x576x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x576x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x48x48x128 : Shape := ⟨4, ![16, 48, 48, 128]⟩
abbrev S128x512 : Shape := ⟨2, ![128, 512]⟩
abbrev S512 : Shape := ⟨1, ![512]⟩
abbrev S16x2304x128 : Shape := ⟨3, ![16, 2304, 128]⟩
abbrev S_ : Shape := ⟨0, ![]⟩
abbrev S16x2304 : Shape := ⟨2, ![16, 2304]⟩
abbrev S16x2304x1 : Shape := ⟨3, ![16, 2304, 1]⟩
abbrev S16x2304x512 : Shape := ⟨3, ![16, 2304, 512]⟩
abbrev S1x1x512 : Shape := ⟨3, ![1, 1, 512]⟩

abbrev nBuf : Space → Nat
  | .hbm => 27
  | .vmem => 0
  | .smem => 0
  | _ => 0

abbrev bufTy : (tb : Table) → Fin (tcTables nBuf tb) → BufTy
  | .hbm, ⟨0, _⟩ => ⟨S16x48x48x128, .f32⟩
  | .hbm, ⟨1, _⟩ => ⟨S128x512, .f32⟩
  | .hbm, ⟨2, _⟩ => ⟨S512, .f32⟩
  | .hbm, ⟨3, _⟩ => ⟨S16x2304x128, .f32⟩
  | .hbm, ⟨4, _⟩ => ⟨S16x2304x128, .f32⟩
  | .hbm, ⟨5, _⟩ => ⟨S_, .f32⟩
  | .hbm, ⟨6, _⟩ => ⟨S16x2304, .f32⟩
  | .hbm, ⟨7, _⟩ => ⟨S16x2304x1, .f32⟩
  | .hbm, ⟨8, _⟩ => ⟨S128x512, .f32⟩
  | .hbm, ⟨9, _⟩ => ⟨S_, .f32⟩
  | .hbm, ⟨10, _⟩ => ⟨S512, .f32⟩
  | .hbm, ⟨11, _⟩ => ⟨S16x2304x512, .f32⟩
  | .hbm, ⟨12, _⟩ => ⟨S1x1x512, .f32⟩
  | .hbm, ⟨13, _⟩ => ⟨S16x2304x512, .f32⟩
  | .hbm, ⟨14, _⟩ => ⟨S16x2304x512, .f32⟩
  | .hbm, ⟨15, _⟩ => ⟨S16x2304x512, .f32⟩
  | .hbm, ⟨16, _⟩ => ⟨S_, .f32⟩
  | .hbm, ⟨17, _⟩ => ⟨S16x2304x512, .f32⟩
  | .hbm, ⟨18, _⟩ => ⟨S16x2304x512, .f32⟩
  | .hbm, ⟨19, _⟩ => ⟨S16x2304x512, .f32⟩
  | .hbm, ⟨20, _⟩ => ⟨S_, .f32⟩
  | .hbm, ⟨21, _⟩ => ⟨S16x2304x512, .f32⟩
  | .hbm, ⟨22, _⟩ => ⟨S16x2304x512, .f32⟩
  | .hbm, ⟨23, _⟩ => ⟨S16x2304x512, .f32⟩
  | .hbm, ⟨24, _⟩ => ⟨S1x1x512, .f32⟩
  | .hbm, ⟨25, _⟩ => ⟨S16x2304x512, .f32⟩
  | .hbm, ⟨26, _⟩ => ⟨S16x2304x512, .f32⟩
  | _, _ => ⟨S16x48x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S16x48x48x128_S16x2304x128 : S16x48x48x128.ShapeCasts S16x2304x128
  reducesTo_S16x2304x128_S16x2304_d2 : S16x2304x128.ReducesTo [2] S16x2304
  h_S_ : 0 < S_.numel
  bcast_S16x2304_S16x2304x1_0_1 : S16x2304.BroadcastsInDim S16x2304x1 (![0, 1] : Fin 2 → Fin S16x2304x1.rank)
  reducesTo_S128x512_S512_d0 : S128x512.ReducesTo [0] S512
  bcast_S512_S1x1x512_2 : S512.BroadcastsInDim S1x1x512 (![2] : Fin 1 → Fin S1x1x512.rank)
  bcast_S16x2304x1_S16x2304x512_0_1_2 : S16x2304x1.BroadcastsInDim S16x2304x512 (![0, 1, 2] : Fin 3 → Fin S16x2304x512.rank)
  bcast_S1x1x512_S16x2304x512_0_1_2 : S1x1x512.BroadcastsInDim S16x2304x512 (![0, 1, 2] : Fin 3 → Fin S16x2304x512.rank)
  bcast_S_S16x2304x512 : S_.BroadcastsInDim S16x2304x512 (![] : Fin 0 → Fin S16x2304x512.rank)
  dot_S16x2304x128_S128x512_S16x2304x512_2_0_01_1_n_n_wf : DotDims.WF S16x2304x128 S128x512 S16x2304x512 [2] [0] [0, 1] [1] [] []

variable [Facts₀]

def dot_S16x2304x128_S128x512_S16x2304x512_2_0_01_1_n_n : DotDims S16x2304x128 S128x512 S16x2304x512 where
  lhsContracting := [2]
  rhsContracting := [0]
  lhsNonContracting := [0, 1]
  rhsNonContracting := [1]
  lhsBatch := []
  rhsBatch := []
  wf := dot_S16x2304x128_S128x512_S16x2304x512_2_0_01_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Score.lean ====
/-
  The Gaussian score of a row against a centre, and a kernel body that computes it read at one entry.

  For a row `x` of `C` numbers, a matrix `W` of `C × M` centres (one per column) and a bias `b`, the score
  at centre `q` is `exp (−(‖x‖² + ‖W_q‖² − 2 ⟨x, W_q⟩)) + b_q`: the squared distance between the row and the centre
  written by the norm expansion, the factors `−1` and `2` as the float words both programs spell.  The extended reals
  are not a ring, so the expansion is NOT folded back into `‖x − W_q‖²`: both programs compute the three sums and
  combine them in the same order, and that expression is what is named here.

  The array-level operations are read at an index: a sum along the rows or down the columns of a matrix, a vector cast
  to one column, and the whole body — the block's leading unit axis dropped, the three sums, the combination, the
  exponential, the bias row — at entry `(0, r, q)` of its result.
-/
import Idealize.ShloMosaic.Lib.ValueIdx
import Idealize.ShloMosaic.Lib.ValueLayout
import Idealize.ShloMosaic.Lib.Pipeline.Value
import Idealize.ShloMosaic.PureOps.Ideal.Laws
import proofs.«121789_j31138512896695_1_alg».proof.Proof.LibRowOps

noncomputable section

open scoped BigOperators

namespace Gauss

open Idealize.ShloMosaic Idealize.ShloMosaic.ValueIdx

/-- The score of the row `x` at centre `q`: `exp (−1 · ((Σ x² + Σ W_q²) − 2 · Σ x W_q)) + b_q`. -/
def score {C M : ℕ} (W : (⟨2, ![C, M]⟩ : Shape).Idx → EReal) (b : (⟨1, ![M]⟩ : Shape).Idx → EReal)
    (x : Fin C → EReal) (q : Fin M) : EReal :=
  Ideal.exp (Ideal.ofBits .f32 0xBF800000#32 *
      (((∑ k : Fin C, x k * x k) + (∑ k : Fin C, W (ix2 k q) * W (ix2 k q)))
        - Ideal.ofBits .f32 0x40000000#32 * (∑ k : Fin C, x k * W (ix2 k q)))) + b (ix1 q)

/-- Congruence in every argument, for comparing two readings of the same score. -/
theorem score_congr {C M : ℕ} {W W' : (⟨2, ![C, M]⟩ : Shape).Idx → EReal} {b b' : (⟨1, ![M]⟩ : Shape).Idx → EReal}
    {x x' : Fin C → EReal} {q q' : Fin M} (hW : W = W') (hb : b = b') (hx : x = x') (hq : q = q') :
    score W b x q = score W' b' x' q' := by
  subst hW hb hx hq; rfl

/-- The whole result: entry `(β, n, q)` is the score of row `n` of batch `β` at centre `q`. -/
def scores {B N C M : ℕ} (X : (⟨3, ![B, N, C]⟩ : Shape).Idx → EReal) (W : (⟨2, ![C, M]⟩ : Shape).Idx → EReal)
    (b : (⟨1, ![M]⟩ : Shape).Idx → EReal) : (⟨3, ![B, N, M]⟩ : Shape).Idx → EReal :=
  fun i => score W b (fun k => X (ix3 (i 0) (i 1) k)) (i 2)

/-! ## Sums along one axis of a matrix -/

/-- The sum along the rows: the reduction over axis 1 of an `[R, C]` array, at `r`, adds row `r`'s entries. -/
theorem rowsum_apply {R C : ℕ} (v : FVec Ideal ⟨2, ![R, C]⟩ .f32) (h : (⟨2, ![R, C]⟩ : Shape).Reduces [1] ⟨1, ![R]⟩)
    (hφ : FKind.Formats .f32) (hacc : (0x00000000#32 : BitVec FTy.f32.bits) = FKind.add.neutral .f32 hφ) (r : Fin R) :
    multiReduction .add [1] ⟨1, ![R]⟩ v 0x00000000#32 h hφ hacc (ix1 r) = ∑ k : Fin C, v (ix2 r k) := by
  rw [Ideal.multiReduction_add_single]
  refine Finset.sum_congr rfl fun k _ => congrArg v (funext fun a => Fin.ext ?_)
  match a with
  | ⟨0, _⟩ => rfl
  | ⟨1, _⟩ => rfl

/-- The sum down the columns: the reduction over axis 0 of an `[R, C]` array, at `q`, adds column `q`'s entries. -/
theorem colsum_apply {R C : ℕ} (v : FVec Ideal ⟨2, ![R, C]⟩ .f32) (h : (⟨2, ![R, C]⟩ : Shape).Reduces [0] ⟨1, ![C]⟩)
    (hφ : FKind.Formats .f32) (hacc : (0x00000000#32 : BitVec FTy.f32.bits) = FKind.add.neutral .f32 hφ) (q : Fin C) :
    multiReduction .add [0] ⟨1, ![C]⟩ v 0x00000000#32 h hφ hacc (ix1 q) = ∑ k : Fin R, v (ix2 k q) := by
  rw [Ideal.multiReduction_add_single]
  refine Finset.sum_congr rfl fun k _ => congrArg v (funext fun a => Fin.ext ?_)
  match a with
  | ⟨0, _⟩ => rfl
  | ⟨1, _⟩ => rfl

/-! ## A vector as one column -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The exponential of an array, entry by entry. -/
theorem exp_apply {s : Shape} (a : FVec Ideal s .f32) (i : s.Idx) : exp a i = Ideal.exp (a i) := rfl

/-! ## The body at an entry -/

/-- The kernel's body on one block of `R` rows: entry `(0, r, q)` of what it stores is the score of the block's row `r`
    at centre `q`.  The row's squared norm is a row sum of the block times itself, cast to a column and broadcast across;
    the centres' squared norms a column sum of `W` times itself, cast to a row and broadcast down; the inner products the
    product of the narrowed operands into a zero accumulator (narrowing is the identity on the ideal values). -/
theorem body_apply {R C M : ℕ}
    (d : DotDims ⟨2, ![R, C]⟩ ⟨2, ![C, M]⟩ ⟨2, ![R, M]⟩) (hd : d = DotDims.plain R C M)
    (x0 : FVec Ideal ⟨3, ![1, R, C]⟩ .f32) (W : FVec Ideal ⟨2, ![C, M]⟩ .f32) (b : FVec Ideal ⟨1, ![M]⟩ .f32)
    (c1 : (⟨3, ![1, R, C]⟩ : Shape).ShapeCasts ⟨2, ![R, C]⟩) (hb : FTy.bf16.bits < FTy.f32.bits)
    (rx : (⟨2, ![R, C]⟩ : Shape).Reduces [1] ⟨1, ![R]⟩) (rW : (⟨2, ![C, M]⟩ : Shape).Reduces [0] ⟨1, ![M]⟩)
    (hφ : FKind.Formats .f32) (hacc : (0x00000000#32 : BitVec FTy.f32.bits) = FKind.add.neutral .f32 hφ)
    (c2 : (⟨1, ![R]⟩ : Shape).ShapeCasts ⟨2, ![R, 1]⟩) (c3 : (⟨1, ![M]⟩ : Shape).ShapeCasts ⟨2, ![1, M]⟩)
    (b1 : (⟨2, ![R, 1]⟩ : Shape).Broadcasts ⟨2, ![R, M]⟩) (b2 : (⟨2, ![1, M]⟩ : Shape).Broadcasts ⟨2, ![R, M]⟩)
    (c4 : (⟨2, ![R, M]⟩ : Shape).ShapeCasts ⟨3, ![1, R, M]⟩) (r : Fin R) (q : Fin M) :
    shapeCast ⟨3, ![1, R, M]⟩
      (addf (exp (mulf (broadcast ⟨2, ![R, M]⟩ (Scalar.ofBits (F := Ideal) .f32 0xBF800000#32))
        (subf
          (addf
            (broadcastTo ⟨2, ![R, M]⟩ (shapeCast ⟨2, ![R, 1]⟩
              (multiReduction .add [1] ⟨1, ![R]⟩ (mulf (shapeCast ⟨2, ![R, C]⟩ x0 c1) (shapeCast ⟨2, ![R, C]⟩ x0 c1))
                0x00000000#32 rx hφ hacc) c2) b1)
            (broadcastTo ⟨2, ![R, M]⟩ (shapeCast ⟨2, ![1, M]⟩
              (multiReduction .add [0] ⟨1, ![M]⟩ (mulf W W) 0x00000000#32 rW hφ hacc) c3) b2))
          (mulf (broadcast ⟨2, ![R, M]⟩ (Scalar.ofBits (F := Ideal) .f32 0x40000000#32))
            (matmul d none (truncf .bf16 (shapeCast ⟨2, ![R, C]⟩ x0 c1) hb) (truncf .bf16 W hb)
              (constant ⟨2, ![R, M]⟩ .f32 0x00000000#32))))))
        (broadcastTo ⟨2, ![R, M]⟩ (shapeCast ⟨2, ![1, M]⟩ b c3) b2)) c4 (ix3 (0 : Fin 1) r q)
      = score W b (fun k => x0 (ix3 (0 : Fin 1) r k)) q := by
  rw [shapeCast_ab_1ab_apply]
  simp only [addf_apply, exp_apply, mulf_apply, subf_apply, broadcast_apply]
  rw [RowOps.broadcastTo_a1_ab_apply, shapeCast_a_a1_apply, rowsum_apply, RowOps.bias_cast_apply, colsum_apply,
    RowOps.matmul_plain_apply d hd, RowOps.bias_cast_apply]
  simp only [mulf_apply, shapeCast_1ab_ab_apply, truncf_apply]
  rfl

end Gauss

end
-- ==== Proof.KernelValue.lean ====
/-
  The idealized kernel's result array is the array of scores.

  The grid has 16 × 4 points; point `(β, ν)` works on rows `576 ν … 576 ν + 575` of batch `β`: its input block is
  those rows of the reshaped argument, the centres and the bias come whole at every point, and its output block is
  the same rows of the result.  The body's stored value at `(0, r, q)` is the score of the block's row `r` at centre
  `q` (`Gauss.body_apply`), and row `r` of the block is row `576 ν + r` of batch `β` of the array, so what a point
  writes back is its block of `Gauss.scores`; the 64 blocks tile the result, which therefore ends as `Gauss.scores`
  of the reshaped argument, the centres and the bias.
-/
import proofs.«121789_j31138512896695_1_alg».proof.Proof.Gen.KernelIdeal.Value
import proofs.«121789_j31138512896695_1_alg».proof.Proof.Score
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scores

open Cert.KernelIdeal Cert.KernelIdeal.Gen Cert.KernelIdeal.Value

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The body's stored value at `(0, r, q)`: the score of the loaded block's row `r` at centre `q`. -/
theorem pay_apply (x0 : Vec Ideal S1x576x128 .f32) (x1 : Vec Ideal S128x512 .f32) (x2 : Vec Ideal S512 .f32)
    (r : Fin 576) (q : Fin 512) :
    k0_pay1 x0 x1 x2 (ix3 (0 : Fin 1) r q) = Gauss.score x1 x2 (fun k => x0 (ix3 (0 : Fin 1) r k)) q := by
  unfold k0_pay1
  exact Gauss.body_apply _ rfl x0 x1 x2 _ _ _ _ _ _ _ _ _ _ _ r q

/-- The same at any index of the block: its leading coordinate is 0. -/
theorem pay_at (x0 : Vec Ideal S1x576x128 .f32) (x1 : Vec Ideal S128x512 .f32) (x2 : Vec Ideal S512 .f32)
    (j : S1x576x512.Idx) :
    k0_pay1 x0 x1 x2 j = Gauss.score x1 x2 (fun k => x0 (ix3 (0 : Fin 1) (j 1) k)) (j 2) := by
  obtain ⟨u, r, q, rfl⟩ : ∃ (u : Fin 1) (r : Fin 576) (q : Fin 512), j = ix3 u r q := ⟨j 0, j 1, j 2, eq_ix3 j⟩
  obtain rfl : u = 0 := Subsingleton.elim _ _
  exact pay_apply x0 x1 x2 r q

/-- The arrays the region finds, and the blocks a point is given, at their literal types. -/
abbrev xarr (c : Dev nD) : Vec Ideal S16x2304x128 .f32 := V m c main_v0
abbrev warr (c : Dev nD) : Vec Ideal S128x512 .f32 := V m c main_arg1
abbrev barr (c : Dev nD) : Vec Ideal S512 .f32 := V m c main_arg2
abbrev xblk (c : Dev nD) (t : Fin cfg0.N) : Vec Ideal S1x576x128 .f32 := iblk m c 0 t
abbrev wblk (c : Dev nD) (t : Fin cfg0.N) : Vec Ideal S128x512 .f32 := iblk m c 1 t
abbrev bblk (c : Dev nD) (t : Fin cfg0.N) : Vec Ideal S512 .f32 := iblk m c 2 t

/-- The printed index maps over the grid: the input rows move with the output rows, both never leave column block 0,
    and the centres and the bias stay at block 0. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0 ∧ win0_2.index t (0 : Fin 1) = 0
    ∧ win0_3.index t (0 : Fin 3) ≤ 15 ∧ win0_3.index t (1 : Fin 3) ≤ 3 :=
  (by decide +kernel : ∀ t : Fin grid0.N, _)

/-- Every block of the result is some point's. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- The centres come whole at every point. -/
theorem wblk_eq (c : Dev nD) (t : Fin cfg0.N) : wblk m c t = warr m c := by
  obtain ⟨-, -, -, -, e4, e5, -, -, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 512 + 1 * (y 1).val = (y 1).val; omega

/-- The bias comes whole at every point. -/
theorem bblk_eq (c : Dev nD) (t : Fin cfg0.N) : bblk m c t = barr m c := by
  obtain ⟨-, -, -, -, -, -, e6, -, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 512 + 1 * (y 0).val = (y 0).val; omega

/-- Row `r` of a point's input block is the row of the array that the point's output block puts at `r`. -/
theorem xblk_apply (c : Dev nD) (t : Fin cfg0.N) (j : S1x576x512.Idx) (k : Fin 128) :
    xblk m c t (ix3 (0 : Fin 1) (j 1) k)
      = xarr m c (ix3 ((((cfg0.win 3).blk t).view.emb j) 0) ((((cfg0.win 3).blk t).view.emb j) 1) k) := by
  obtain ⟨e0, e1, e2, e3, -, -, -, -, -⟩ := idx_facts t
  show V m c main_v0 (((cfg0.win 0).blk t).view.emb (ix3 (0 : Fin 1) (j 1) k)) = V m c main_v0 _
  refine congrArg _ (funext fun a => Fin.ext ?_)
  have hj0 : (j 0).val < 1 := (j 0).isLt
  match a with
  | ⟨0, _⟩ => show win0_0.index t (0 : Fin 3) * 1 + 1 * 0 = win0_3.index t (0 : Fin 3) * 1 + 1 * (j 0).val; omega
  | ⟨1, _⟩ => show win0_0.index t (1 : Fin 3) * 576 + 1 * (j 1).val = win0_3.index t (1 : Fin 3) * 576 + 1 * (j 1).val; omega
  | ⟨2, _⟩ => show win0_0.index t (2 : Fin 3) * 128 + 1 * k.val = k.val; omega

/-- WHAT POINT `t` WRITES BACK is its block of the scores. -/
theorem flushed_eq (c : Dev nD) (t : Fin cfg0.N) :
    (dats m 0 c).flushed 3 t = ((cfg0.win 3).blk t).view.read (Elt Ideal) (Gauss.scores (xarr m c) (warr m c) (barr m c)) := by
  rw [Value.flushed3]
  unfold out0_3
  rw [View.canon_unit_zero hz3]
  simp only [View.ld_unit_zero (S := S1x576x128) hz3, View.ld_unit_zero (S := S128x512) hz2, View.ld_unit_zero (S := S512) hz1]
  funext j
  obtain ⟨-, -, -, e3, -, -, -, -, -⟩ := idx_facts t
  show k0_pay1 (xblk m c t) (wblk m c t) (bblk m c t) j = Gauss.scores (xarr m c) (warr m c) (barr m c) (((cfg0.win 3).blk t).view.emb j)
  refine (pay_at (xblk m c t) (wblk m c t) (bblk m c t) j).trans ?_
  unfold Gauss.scores
  refine Gauss.score_congr (wblk_eq m c t) (bblk_eq m c t) (funext fun k => xblk_apply m c t j k) (Fin.ext ?_)
  show (j 2).val = win0_3.index t (2 : Fin 3) * 512 + 1 * (j 2).val
  omega

/-- An index of the result is in point `t`'s block iff each coordinate is in the block's range on its axis. -/
theorem mem_blk (t : Fin cfg0.N) (i : S16x2304x512.Idx) :
    i ∈ ((cfg0.win 3).blk t).view.set ↔ ∀ a : Fin 3, win0_3.index t a * S1x576x512.size a ≤ (i a).val ∧ (i a).val < win0_3.index t a * S1x576x512.size a + S1x576x512.size a := by
  show i ∈ ((View.whole main_v1).slice (win0_3.rect t)).set ↔ _
  rw [View.set_slice_whole, Rect.mem_set_unit]
  exact Iff.rfl

/-- The 64 blocks cover the result: entry `(β, n, q)` lies in the block of the point whose index is `(β, n / 576, 0)`. -/
theorem cover (i : S16x2304x512.Idx) : ∃ t : Fin cfg0.N, (cfg0.win 3).flush t = true ∧ i ∈ ((cfg0.win 3).blk t).view.set := by
  have hi0 : (i 0).val < 16 := (i 0).isLt
  have hi1 : (i 1).val < 2304 := (i 1).isLt
  have hi2 : (i 2).val < 512 := (i 2).isLt
  obtain ⟨t, ht⟩ := idx_onto ⟨(i 0).val, hi0⟩ ⟨(i 1).val / 576, by omega⟩
  have q0 : win0_3.index t (0 : Fin 3) = (i 0).val := congrFun ht 0
  have q1 : win0_3.index t (1 : Fin 3) = (i 1).val / 576 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 576 ≤ (i 1).val ∧ (i 1).val < win0_3.index t (1 : Fin 3) * 576 + 576; omega
  | ⟨2, _⟩ => show win0_3.index t (2 : Fin 3) * 512 ≤ (i 2).val ∧ (i 2).val < win0_3.index t (2 : Fin 3) * 512 + 512; omega

/-- THE RESULT ARRAY after the run: the scores of the arrays the region finds. -/
theorem final (c : Dev nD) : (dats m 0 c).arrAt 3 cfg0.N = Gauss.scores (xarr m c) (warr m c) (barr m c) :=
  (dats m 0 c).arrAt_eq_of_cover 3 (Gauss.scores (xarr m c) (warr m c) (barr m c)) (fun t _ => flushed_eq m c t) cover

/-- The one host operation before the region reshapes the first argument: the region finds rows of 128. -/
theorem xarr_eq (c : Dev nD) :
    xarr m c = shapeCast S16x2304x128 (m ((c : Thread nD τ).loc main_arg0)) shapeCasts_S16x48x48x128_S16x2304x128 := by
  show (V m c main_v0 : S16x2304x128.Idx → EReal) = _
  dsimp only [Gen.V, Gen.hostOps0]; after_results; rfl

/-- The run, read: the result array ends at the scores of the reshaped first argument against the centres and the
    bias as launched; the arguments are unchanged. -/
theorem run : θ_run defs (onTc (τ := τ) (main (F := Ideal))) ⟨m, fun _ => 0, ρ⟩ fun r => ∀ c : Dev nD,
      r.2.mem ((c : Thread nD τ).loc main_v1)
        = Gauss.scores (shapeCast S16x2304x128 (m ((c : Thread nD τ).loc main_arg0)) shapeCasts_S16x48x48x128_S16x2304x128)
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      rw [xarr_eq]
      show Gauss.scores _ (V m c main_arg1) (V m c main_arg2) = _
      rw [V_main_arg1, V_main_arg2])), (h c).2⟩) (Value.run_blocks m ρ)

end Cert.KernelIdeal.Scores

end
-- ==== Proof.RefValue.lean ====
/-
  The idealized reference's result is the array of scores.

  The reference reshapes the first argument to rows of 128, sums each row's squares and each centre's squares from a
  zero initial value, takes the inner products by one `dot_general`, combines them as
  `exp (−1 · ((‖x‖² + ‖w‖²) − 2 ⟨x, w⟩)) + b` and broadcasts as needed.  Read at an entry `(β, n, q)`, operation by
  operation, that is the score of row `n` of batch `β` at centre `q`: the broadcasts only forward coordinates, the zero
  initial values drop out of the sums, and the host's exponential is the exponential of the extended reals.
-/
import proofs.«121789_j31138512896695_1_alg».proof.Proof.Gen.ReferenceIdeal.Run
import proofs.«121789_j31138512896695_1_alg».proof.Proof.Gen.ReferenceIdeal.Read
import proofs.«121789_j31138512896695_1_alg».proof.Proof.Score

noncomputable section

open Idealize.ShloMosaic Idealize.ShloMosaic.TcCoe Idealize.SL.Sem Idealize.ShloMosaic.ValueIdx

namespace Cert.ReferenceIdeal.Scores

open Cert.ReferenceIdeal Cert.ReferenceIdeal.Gen Cert.ReferenceIdeal.Read

/-- The reference's last stage is the scores of the reshaped first argument. -/
theorem ref_eq (x0 : Vec Ideal S16x48x48x128 .f32) (x1 : Vec Ideal S128x512 .f32) (x2 : Vec Ideal S512 .f32) :
    val_main_v19 (F := Ideal) x0 x1 x2
      = Gauss.scores (shapeCast S16x2304x128 x0 shapeCasts_S16x48x48x128_S16x2304x128) x1 x2 := by
  funext i
  have e1 : ∀ k : Fin 128, idx_main_v2 (idx_main_v3 (idx_main_v8 i)) k = ix3 (i 0) (i 1) k := fun k =>
    funext fun a => Fin.ext (by match a with | ⟨0, _⟩ => rfl | ⟨1, _⟩ => rfl | ⟨2, _⟩ => rfl)
  have e2 : ∀ k : Fin 128, idx_main_v5 (idx_main_v7 (idx_main_v9 i)) k = ix2 k (i 2) := fun k =>
    funext fun a => Fin.ext (by match a with | ⟨0, _⟩ => rfl | ⟨1, _⟩ => rfl)
  have e3 : ∀ k : Fin 128, lidx_main_v6 i k = ix3 (i 0) (i 1) k := fun k =>
    funext fun a => Fin.ext (by match a with | ⟨0, _⟩ => rfl | ⟨1, _⟩ => rfl | ⟨2, _⟩ => rfl)
  have e4 : ∀ k : Fin 128, ridx_main_v6 i k = ix2 k (i 2) := fun k =>
    funext fun a => Fin.ext (by match a with | ⟨0, _⟩ => rfl | ⟨1, _⟩ => rfl)
  have e5 : idx_main_v17 (idx_main_v18 i) = ix1 (i 2) :=
    funext fun a => Fin.ext (by match a with | ⟨0, _⟩ => rfl)
  rw [val_main_v19_apply, val_main_v16_apply, val_main_v15_apply, val_main_v14_apply, val_main_cst_2_apply,
    val_main_v13_apply, val_main_v10_apply, val_main_v8_apply, val_main_v3_apply, val_main_v2_apply, val_main_cst_apply,
    val_main_v9_apply, val_main_v7_apply, val_main_v5_apply, val_main_cst_0_apply, val_main_v12_apply,
    val_main_v11_apply, val_main_cst_1_apply, val_main_v6_apply, val_main_v18_apply, val_main_v17_apply]
  simp only [e1, e2, e3, e4, e5, val_main_v1_apply, val_main_v4_apply, Ideal.ofBits_def, Ideal.ofBits_zero_f32, zero_add,
    Ideal.mulf_def, Ideal.addf_def, Ideal.subf_def, Ideal.hostUnary_exp_def]
  rfl

end Cert.ReferenceIdeal.Scores

end
-- ==== Proof.lean ====
/-
  The Gaussian-kernel layer `exp (−‖x − w‖²) + b`, computed through the norm expansion
  `‖x‖² + ‖w‖² − 2 ⟨x, w⟩`, as a pipelined kernel over blocks of 576 rows against its plain array reference.

  Both programs form the same three sums over the 128 channels — a row's squares, a centre's squares, their inner
  product — and combine them in the same order with the same two literals, so at the ideal values the two results
  are one function of the arguments, entry by entry: `Gauss.scores` (Proof/Score.lean).  No law of real arithmetic
  joins the two sides, only the reading of each array operation at an index; in particular the precondition (finite
  inputs) is never opened.  The kernel narrows its matrix-product operands to bf16, which changes nothing at the
  ideal values; its product into a zero accumulator is the reference's `dot_general`, and its reductions without an
  initial value are the reference's reductions from zero.

  Proof/KernelValue.lean: the kernel's result array is `Gauss.scores` (each grid point writes its block of it, the
  blocks tile the result).  Proof/RefValue.lean: the reference's last stage is `Gauss.scores`.  The frames of the
  two kernels are the generated ones; the reference's frame is its run with the result forgotten; the idealization
  rewrote nothing, so there is nothing to preserve.
-/
import proofs.«121789_j31138512896695_1_alg».proof.Defs
import proofs.«121789_j31138512896695_1_alg».proof.Proof.Gen.Kernel
import proofs.«121789_j31138512896695_1_alg».proof.Proof.Gen.Kernel.Skeleton
import proofs.«121789_j31138512896695_1_alg».proof.Proof.Gen.Kernel.Launch
import proofs.«121789_j31138512896695_1_alg».proof.Proof.Gen.Kernel.Points
import proofs.«121789_j31138512896695_1_alg».proof.Proof.Gen.Kernel.Frame
import proofs.«121789_j31138512896695_1_alg».proof.Proof.Gen.KernelIdeal
import proofs.«121789_j31138512896695_1_alg».proof.Proof.Gen.KernelIdeal.Skeleton
import proofs.«121789_j31138512896695_1_alg».proof.Proof.Gen.KernelIdeal.Launch
import proofs.«121789_j31138512896695_1_alg».proof.Proof.Gen.KernelIdeal.Points
import proofs.«121789_j31138512896695_1_alg».proof.Proof.Gen.KernelIdeal.Frame
import proofs.«121789_j31138512896695_1_alg».proof.Proof.Gen.ReferenceIdeal
import proofs.«121789_j31138512896695_1_alg».proof.Proof.Gen.Pre_finite_inputs
import proofs.«121789_j31138512896695_1_alg».proof.Proof.KernelValue
import proofs.«121789_j31138512896695_1_alg».proof.Proof.RefValue
import Idealize.ShloMosaic.Adequacy
import Idealize.ShloMosaic.Init

noncomputable section

namespace Cert.Proof

open Idealize.ShloMosaic Idealize.SL.Sem

/-- The reference runs and leaves its arguments alone: its generated run with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the scores of the reshaped first argument
    against the centres and the bias. -/
theorem algebraic : Cert.algebraic_KernelIdeal_ReferenceIdeal := by
  intro m ρ m' ρ' _ hagree
  refine ⟨_, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Scores.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ref, trivial, algebraic⟩

end Cert.Proof

end
